-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v11) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v18) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S128x512 : Shape := ⟨2, ![128, 512]⟩
abbrev S128x512x512 : Shape := ⟨3, ![128, 512, 512]⟩
abbrev S_ : Shape := ⟨0, ![]⟩

class Facts : Prop where
  bcast_S_S128x512 : S_.BroadcastsInDim S128x512 (![] : Fin 0 → Fin S128x512.rank)
  reducesTo_S128x512_S_d0_1 : S128x512.ReducesTo [0, 1] S_
  h_S_ : 0 < S_.numel
  bcast_S_S128x512x512 : S_.BroadcastsInDim S128x512x512 (![] : Fin 0 → Fin S128x512x512.rank)
  reducesTo_S128x512x512_S_d0_1_2 : S128x512x512.ReducesTo [0, 1, 2] S_

variable [Facts]

def fn {F : FTy → Type} [FloatOps F] (main_arg0 : FVec F S128x512 .f32) (main_arg1 : FVec F S128x512x512 .f32) (main_arg2 : FVec F S128x512x512 .f32) : IVec S_ 1 :=
  let main_v0 : FVec F S128x512 .f32 := Host.absf main_arg0
  let main_cst : FVec F S_ .f32 := constant S_ .f32 0x7F800000#32
  let main_v1 : FVec F S128x512 .f32 := broadcastInDim S128x512 ![] bcast_S_S128x512 main_cst
  let main_v2 : IVec S128x512 1 := cmpf .olt main_v0 main_v1
  let main_c : IVec S_ 1 := constantI S_ 1 1#1
  let main_v3 : IVec S_ 1 := (fun x v => Host.reduce IntOp.andi x v reducesTo_S128x512_S_d0_1 h_S_) main_v2 main_c
  let main_v4 : FVec F S128x512x512 .f32 := Host.absf main_arg1
  let main_cst_0 : FVec F S_ .f32 := constant S_ .f32 0x7F800000#32
  let main_v5 : FVec F S128x512x512 .f32 := broadcastInDim S128x512x512 ![] bcast_S_S128x512x512 main_cst_0
  let main_v6 : IVec S128x512x512 1 := cmpf .olt main_v4 main_v5
  let main_c_1 : IVec S_ 1 := constantI S_ 1 1#1
  let main_v7 : IVec S_ 1 := (fun x v => Host.reduce IntOp.andi x v reducesTo_S128x512x512_S_d0_1_2 h_S_) main_v6 main_c_1
  let main_v8 : IVec S_ 1 := andi main_v3 main_v7
  let main_v9 : FVec F S128x512x512 .f32 := Host.absf main_arg2
  let main_cst_2 : FVec F S_ .f32 := constant S_ .f32 0x7F800000#32
  let main_v10 : FVec F S128x512x512 .f32 := broadcastInDim S128x512x512 ![] bcast_S_S128x512x512 main_cst_2
  let main_v11 : IVec S128x512x512 1 := cmpf .olt main_v9 main_v10
  let main_c_3 : IVec S_ 1 := constantI S_ 1 1#1
  let main_v12 : IVec S_ 1 := (fun x v => Host.reduce IntOp.andi x v reducesTo_S128x512x512_S_d0_1_2 h_S_) main_v11 main_c_3
  let main_v13 : IVec S_ 1 := andi main_v8 main_v12
  main_v13
-- ==== Kernel.lean ====
abbrev S128x512 : Shape := ⟨2, ![128, 512]⟩
abbrev S128x512x512 : Shape := ⟨3, ![128, 512, 512]⟩
abbrev S_ : Shape := ⟨0, ![]⟩
abbrev S512x512 : Shape := ⟨2, ![512, 512]⟩
abbrev S2x512x512 : Shape := ⟨3, ![2, 512, 512]⟩
abbrev S1x512x512 : Shape := ⟨3, ![1, 512, 512]⟩

abbrev nBuf : Space → Nat
  | .hbm => 26
  | .vmem => 7
  | .smem => 0
  | _ => 0

abbrev bufTy : (tb : Table) → Fin (tcTables nBuf tb) → BufTy
  | .hbm, ⟨0, _⟩ => ⟨S128x512, .f32⟩
  | .hbm, ⟨1, _⟩ => ⟨S128x512x512, .f32⟩
  | .hbm, ⟨2, _⟩ => ⟨S128x512x512, .f32⟩
  | .hbm, ⟨3, _⟩ => ⟨S_, .f32⟩
  | .hbm, ⟨4, _⟩ => ⟨S512x512, .f32⟩
  | .hbm, ⟨5, _⟩ => ⟨S512x512, .i32⟩
  | .hbm, ⟨6, _⟩ => ⟨S_, .i32⟩
  | .hbm, ⟨7, _⟩ => ⟨S512x512, .i32⟩
  | .hbm, ⟨8, _⟩ => ⟨S512x512, .i32⟩
  | .hbm, ⟨9, _⟩ => ⟨S512x512, .i32⟩
  | .hbm, ⟨10, _⟩ => ⟨S512x512, .i1⟩
  | .hbm, ⟨11, _⟩ => ⟨S_, .f32⟩
  | .hbm, ⟨12, _⟩ => ⟨S512x512, .f32⟩
  | .hbm, ⟨13, _⟩ => ⟨S512x512, .f32⟩
  | .hbm, ⟨14, _⟩ => ⟨S512x512, .i32⟩
  | .hbm, ⟨15, _⟩ => ⟨S512x512, .i32⟩
  | .hbm, ⟨16, _⟩ => ⟨S_, .i32⟩
  | .hbm, ⟨17, _⟩ => ⟨S512x512, .i32⟩
  | .hbm, ⟨18, _⟩ => ⟨S512x512, .i32⟩
  | .hbm, ⟨19, _⟩ => ⟨S512x512, .i1⟩
  | .hbm, ⟨20, _⟩ => ⟨S512x512, .f32⟩
  | .hbm, ⟨21, _⟩ => ⟨S_, .f32⟩
  | .hbm, ⟨22, _⟩ => ⟨S512x512, .f32⟩
  | .hbm, ⟨23, _⟩ => ⟨S512x512, .f32⟩
  | .hbm, ⟨24, _⟩ => ⟨S512x512, .f32⟩
  | .hbm, ⟨25, _⟩ => ⟨S128x512x512, .f32⟩
  | .local _ .vmem, ⟨0, _⟩ => ⟨S2x512x512, .f32⟩
  | .local _ .vmem, ⟨1, _⟩ => ⟨S2x512x512, .f32⟩
  | .local _ .vmem, ⟨2, _⟩ => ⟨S2x512x512, .f32⟩
  | .local _ .vmem, ⟨3, _⟩ => ⟨S2x512x512, .f32⟩
  | .local _ .vmem, ⟨4, _⟩ => ⟨S512x512, .f32⟩
  | .local _ .vmem, ⟨5, _⟩ => ⟨S2x512x512, .f32⟩
  | .local _ .vmem, ⟨6, _⟩ => ⟨S2x512x512, .f32⟩
  | _, _ => ⟨S128x512, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_call0_v0 : Ref sig .tc := ⟨.hbm, 5, rfl⟩
abbrev main_call0_c : Ref sig .tc := ⟨.hbm, 6, rfl⟩
abbrev main_call0_v1 : Ref sig .tc := ⟨.hbm, 7, rfl⟩
abbrev main_call0_v2 : Ref sig .tc := ⟨.hbm, 8, rfl⟩
abbrev main_call0_v3 : Ref sig .tc := ⟨.hbm, 9, rfl⟩
abbrev main_call0_v4 : Ref sig .tc := ⟨.hbm, 10, rfl⟩
abbrev main_call0_cst : Ref sig .tc := ⟨.hbm, 11, rfl⟩
abbrev main_call0_v5 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_c : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![64], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S2x512x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2x512x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S512x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2x512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

class Facts₀ : Prop where
  bcast_S_S512x512 : S_.BroadcastsInDim S512x512 (![] : Fin 0 → Fin S512x512.rank)
  inb_S2x512x512_S2x512x512_0_0_0 : ∀ a, (![0, 0, 0] : Fin 3 → Nat) a + S2x512x512.size a ≤ S2x512x512.size a
  h_S2x512x512 : 0 < S2x512x512.numel
  bitsLt_bf16_f32 : FTy.bits .bf16 < FTy.bits .f32
  inb_S512x512_S512x512_0_0 : ∀ a, (![0, 0] : Fin 2 → Nat) a + S512x512.size a ≤ S512x512.size a
  h_S512x512 : 0 < S512x512.numel
  shapeCasts_S512x512_S512x512 : S512x512.ShapeCasts S512x512
  shapeCasts_S512x512_S1x512x512 : S512x512.ShapeCasts S1x512x512
  broadcasts_S1x512x512_S2x512x512 : S1x512x512.Broadcasts S2x512x512
  dot_S2x512x512_S2x512x512_S2x512x512_2_1_1_2_0_0_wf : DotDims.WF S2x512x512 S2x512x512 S2x512x512 [2] [1] [1] [2] [0] [0]
  dot_S2x512x512_S2x512x512_S2x512x512_1_1_2_2_0_0_wf : DotDims.WF S2x512x512 S2x512x512 S2x512x512 [1] [1] [2] [2] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x512x512.size a ≤ S128x512x512.size a
  hwx0_0 : ∀ i : grid0.Coords, EltTy.bits .f32 = 32 ∨ (Rect.block (s := S128x512x512) S2x512x512.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2x512x512.size a ≤ S128x512x512.size a
  hwx0_1 : ∀ i : grid0.Coords, EltTy.bits .f32 = 32 ∨ (Rect.block (s := S128x512x512) S2x512x512.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S512x512.size a ≤ S512x512.size a
  hwx0_2 : ∀ i : grid0.Coords, EltTy.bits .f32 = 32 ∨ (Rect.block (s := S512x512) S512x512.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2x512x512.size a ≤ S128x512x512.size a
  hwx0_3 : ∀ i : grid0.Coords, EltTy.bits .f32 = 32 ∨ (Rect.block (s := S128x512x512) S2x512x512.size (cc0_transform_3 i) (hinb0_3 i)).WholeWords (EltTy.packing .f32)

variable [Facts₀]

def dot_S2x512x512_S2x512x512_S2x512x512_2_1_1_2_0_0 : DotDims S2x512x512 S2x512x512 S2x512x512 where
  lhsContracting := [2]
  rhsContracting := [1]
  lhsNonContracting := [1]
  rhsNonContracting := [2]
  lhsBatch := [0]
  rhsBatch := [0]
  wf := dot_S2x512x512_S2x512x512_S2x512x512_2_1_1_2_0_0_wf
def dot_S2x512x512_S2x512x512_S2x512x512_1_1_2_2_0_0 : DotDims S2x512x512 S2x512x512 S2x512x512 where
  lhsContracting := [1]
  rhsContracting := [1]
  lhsNonContracting := [2]
  rhsNonContracting := [2]
  lhsBatch := [0]
  rhsBatch := [0]
  wf := dot_S2x512x512_S2x512x512_S2x512x512_1_1_2_2_0_0_wf

abbrev win0_0 : Pipeline.Window sig grid0 :=
  Pipeline.Window.ofSpec (Memref.whole main_arg1) S2x512x512.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S2x512x512.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v10) S512x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v11) S2x512x512.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

class Facts : Prop extends Facts₀ where

variable [Facts]
-- ==== ReferenceIdeal.lean ====
abbrev S128x512 : Shape := ⟨2, ![128, 512]⟩
abbrev S128x512x512 : Shape := ⟨3, ![128, 512, 512]⟩
abbrev S_ : Shape := ⟨0, ![]⟩
abbrev S512x512 : Shape := ⟨2, ![512, 512]⟩
abbrev S1x512x512 : Shape := ⟨3, ![1, 512, 512]⟩

abbrev nBuf : Space → Nat
  | .hbm => 33
  | .vmem => 0
  | .smem => 0
  | _ => 0

abbrev bufTy : (tb : Table) → Fin (tcTables nBuf tb) → BufTy
  | .hbm, ⟨0, _⟩ => ⟨S128x512, .f32⟩
  | .hbm, ⟨1, _⟩ => ⟨S128x512x512, .f32⟩
  | .hbm, ⟨2, _⟩ => ⟨S128x512x512, .f32⟩
  | .hbm, ⟨3, _⟩ => ⟨S128x512x512, .f32⟩
  | .hbm, ⟨4, _⟩ => ⟨S128x512x512, .f32⟩
  | .hbm, ⟨5, _⟩ => ⟨S128x512x512, .f32⟩
  | .hbm, ⟨6, _⟩ => ⟨S_, .f32⟩
  | .hbm, ⟨7, _⟩ => ⟨S512x512, .f32⟩
  | .hbm, ⟨8, _⟩ => ⟨S512x512, .i32⟩
  | .hbm, ⟨9, _⟩ => ⟨S_, .i32⟩
  | .hbm, ⟨10, _⟩ => ⟨S512x512, .i32⟩
  | .hbm, ⟨11, _⟩ => ⟨S512x512, .i32⟩
  | .hbm, ⟨12, _⟩ => ⟨S512x512, .i32⟩
  | .hbm, ⟨13, _⟩ => ⟨S512x512, .i1⟩
  | .hbm, ⟨14, _⟩ => ⟨S_, .f32⟩
  | .hbm, ⟨15, _⟩ => ⟨S512x512, .f32⟩
  | .hbm, ⟨16, _⟩ => ⟨S512x512, .f32⟩
  | .hbm, ⟨17, _⟩ => ⟨S512x512, .i32⟩
  | .hbm, ⟨18, _⟩ => ⟨S512x512, .i32⟩
  | .hbm, ⟨19, _⟩ => ⟨S_, .i32⟩
  | .hbm, ⟨20, _⟩ => ⟨S512x512, .i32⟩
  | .hbm, ⟨21, _⟩ => ⟨S512x512, .i32⟩
  | .hbm, ⟨22, _⟩ => ⟨S512x512, .i1⟩
  | .hbm, ⟨23, _⟩ => ⟨S512x512, .f32⟩
  | .hbm, ⟨24, _⟩ => ⟨S_, .f32⟩
  | .hbm, ⟨25, _⟩ => ⟨S512x512, .f32⟩
  | .hbm, ⟨26, _⟩ => ⟨S512x512, .f32⟩
  | .hbm, ⟨27, _⟩ => ⟨S512x512, .f32⟩
  | .hbm, ⟨28, _⟩ => ⟨S1x512x512, .f32⟩
  | .hbm, ⟨29, _⟩ => ⟨S128x512x512, .f32⟩
  | .hbm, ⟨30, _⟩ => ⟨S128x512x512, .f32⟩
  | .hbm, ⟨31, _⟩ => ⟨S128x512x512, .f32⟩
  | .hbm, ⟨32, _⟩ => ⟨S128x512x512, .f32⟩
  | _, _ => ⟨S128x512, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_c : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_cst_0 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩

abbrev nD : Nat := 1
abbrev τ : Topo := Topo.v7x

variable {F : FTy → Type} [FloatOps F]

class Facts₀ : Prop where
  transposes_S128x512x512_S128x512x512_0_2_1 : S128x512x512.Transposes [0, 2, 1] S128x512x512
  bcast_S_S512x512 : S_.BroadcastsInDim S512x512 (![] : Fin 0 → Fin S512x512.rank)
  bcast_S512x512_S1x512x512_1_2 : S512x512.BroadcastsInDim S1x512x512 (![1, 2] : Fin 2 → Fin S1x512x512.rank)
  bcast_S1x512x512_S128x512x512_0_1_2 : S1x512x512.BroadcastsInDim S128x512x512 (![0, 1, 2] : Fin 3 → Fin S128x512x512.rank)
  dot_S128x512x512_S128x512x512_S128x512x512_2_1_1_2_0_0_wf : DotDims.WF S128x512x512 S128x512x512 S128x512x512 [2] [1] [1] [2] [0] [0]

variable [Facts₀]

def dot_S128x512x512_S128x512x512_S128x512x512_2_1_1_2_0_0 : DotDims S128x512x512 S128x512x512 S128x512x512 where
  lhsContracting := [2]
  rhsContracting := [1]
  lhsNonContracting := [1]
  rhsNonContracting := [2]
  lhsBatch := [0]
  rhsBatch := [0]
  wf := dot_S128x512x512_S128x512x512_S128x512x512_2_1_1_2_0_0_wf

class Facts : Prop extends Facts₀ where

variable [Facts]
-- ==== Proof.CholProduct.lean ====
/-
  The function both programs compute, entry by entry on the extended reals. For one batch element write
  A for the covariance matrix, L for the Cholesky factor (both 512 × 512) and M for the mask (ones strictly
  below the diagonal, one half on it, zero above). Then
      P = A · L,     Φ = Lᵀ · P,     Ψ = Φ ∘ M  (entrywise),     R = −(L · Ψ),
  and R is the result. Each product is the plain sum over the shared axis; nothing is reordered between the
  two programs, so no law of arithmetic beyond `0 - x = -x` is needed and the inputs' finiteness is never used.
  The arrays carry a leading batch axis of any extent `B`, so that the same text reads a block of two batch
  elements and the whole array of 128; `result_restrict` says the function commutes with restricting the
  batch axis along any map of batch indices.
-/
import Idealize.ShloMosaic.PureOps.Ideal
import Idealize.ShloMosaic.Lib.ValueIdx

noncomputable section

namespace Cert.CholProduct

open Idealize.ShloMosaic Idealize.ShloMosaic.ValueIdx

/-- A batch of `B` square matrices of side 512, as an array of extended reals. -/
abbrev Batch (B : Nat) : Type := (⟨3, ![B, 512, 512]⟩ : Shape).Idx → EReal
/-- One square matrix of side 512. -/
abbrev Square : Type := (⟨2, ![512, 512]⟩ : Shape).Idx → EReal

variable {B : Nat}

/-- `P = A · L`: entry `(i, k)` of batch element `b` is `∑ j, A[i, j] · L[j, k]`. -/
def covChol (cov chol : Batch B) (b : Fin B) (i k : Fin 512) : EReal :=
  ∑ j : Fin 512, cov (ix3 b i j) * chol (ix3 b j k)

/-- `Φ = Lᵀ · P`: entry `(i, k)` is `∑ j, L[j, i] · P[j, k]` (the sum runs over the ROWS of `L`). -/
def phi (cov chol : Batch B) (b : Fin B) (i k : Fin 512) : EReal :=
  ∑ j : Fin 512, chol (ix3 b j i) * covChol cov chol b j k

/-- `Ψ = Φ ∘ M`: each entry of `Φ` times the mask's entry at the same place, the same mask for every batch element. -/
def phiMasked (cov chol : Batch B) (mask : Square) (b : Fin B) (i k : Fin 512) : EReal :=
  phi cov chol b i k * mask (ix2 i k)

/-- `R = −(L · Ψ)`, as an array: entry `(b, i, k)` is `−∑ j, L[i, j] · Ψ[j, k]`. -/
def result (cov chol : Batch B) (mask : Square) : Batch B :=
  fun idx => -∑ j : Fin 512, chol (ix3 (idx 0) (idx 1) j) * phiMasked cov chol mask (idx 0) j (idx 2)

theorem result_apply (cov chol : Batch B) (mask : Square) (b : Fin B) (i k : Fin 512) :
    result cov chol mask (ix3 b i k) = -∑ j : Fin 512, chol (ix3 b i j) * phiMasked cov chol mask b j k := rfl

/-- The batch elements do not mix: if `x`, `y` are `cov`, `chol` read along a map `e` of batch indices, then the
    result of `x`, `y` at batch element `p` is the result of `cov`, `chol` at batch element `e p`. -/
theorem result_restrict {B' : Nat} (cov chol : Batch B) (x y : Batch B') (mask : Square) (e : Fin B' → Fin B)
    (hx : ∀ p i j, x (ix3 p i j) = cov (ix3 (e p) i j)) (hy : ∀ p i j, y (ix3 p i j) = chol (ix3 (e p) i j))
    (p : Fin B') (i k : Fin 512) :
    result x y mask (ix3 p i k) = result cov chol mask (ix3 (e p) i k) := by
  rw [result_apply, result_apply]
  unfold phiMasked phi covChol
  simp only [hx, hy]

end Cert.CholProduct

end
-- ==== Proof.KernelBlock.lean ====
/-
  One grid point's block of the kernel, read entry by entry at the ideal values. The body loads a block of two
  batch elements of `cov` and of `chol` and the whole mask, and stores
      0 − L · ((Lᵀ · (A · L)) ∘ M)
  for each of the two batch elements: three matrix products into a zero accumulator (the first and the third contract
  the left operand's columns with the right operand's rows; the second contracts the ROWS of both, which is the
  product with the transpose), one entrywise product with the mask broadcast over the batch axis, and a subtraction
  from zero. The roundings to the narrower float format in between are the identity at the ideal values.
  Each product read at an entry is the plain sum over the contracted axis (the contraction index re-indexed as a
  number below 512), so the stored block is `CholProduct.result` of the three loaded arrays.
-/
import proofs.«169895_j25237227831465_1_alg».proof.Proof.Gen.KernelIdeal.Skeleton
import proofs.«169895_j25237227831465_1_alg».proof.Proof.CholProduct
import Idealize.ShloMosaic.Lib.Pipeline.Value
import Idealize.ShloMosaic.Lib.ValueIdx
import Idealize.ShloMosaic.PureOps.Ideal.Laws

noncomputable section

namespace Cert.KernelIdeal.Block

open Cert.KernelIdeal Cert.KernelIdeal.Gen Idealize.ShloMosaic Idealize.ShloMosaic.ValueIdx

/-! ## The product that contracts the left operand's columns with the right operand's rows -/

theorem lhs_colrow_0 (i : S2x512x512.Idx) (q : dot_S2x512x512_S2x512x512_S2x512x512_2_1_1_2_0_0.contr.Idx) :
    (dot_S2x512x512_S2x512x512_S2x512x512_2_1_1_2_0_0.lhsIdx i q 0).val = (i 0).val := by
  unfold DotDims.lhsIdx
  rw [dif_pos (show (0 : Fin S2x512x512.rank) ∈ dot_S2x512x512_S2x512x512_S2x512x512_2_1_1_2_0_0.lhsBatch by decide)]
  rfl
theorem lhs_colrow_1 (i : S2x512x512.Idx) (q : dot_S2x512x512_S2x512x512_S2x512x512_2_1_1_2_0_0.contr.Idx) :
    (dot_S2x512x512_S2x512x512_S2x512x512_2_1_1_2_0_0.lhsIdx i q 1).val = (i 1).val := by
  unfold DotDims.lhsIdx
  rw [dif_neg (show ¬(1 : Fin S2x512x512.rank) ∈ dot_S2x512x512_S2x512x512_S2x512x512_2_1_1_2_0_0.lhsBatch by decide), dif_pos (show (1 : Fin S2x512x512.rank) ∈ dot_S2x512x512_S2x512x512_S2x512x512_2_1_1_2_0_0.lhsNonContracting by decide)]
  rfl
theorem lhs_colrow_2 (i : S2x512x512.Idx) (q : dot_S2x512x512_S2x512x512_S2x512x512_2_1_1_2_0_0.contr.Idx) :
    (dot_S2x512x512_S2x512x512_S2x512x512_2_1_1_2_0_0.lhsIdx i q 2).val = (q ⟨0, by decide⟩).val :=
  dot_S2x512x512_S2x512x512_S2x512x512_2_1_1_2_0_0.lhsIdx_val_of_single rfl i q
theorem rhs_colrow_0 (i : S2x512x512.Idx) (q : dot_S2x512x512_S2x512x512_S2x512x512_2_1_1_2_0_0.contr.Idx) :
    (dot_S2x512x512_S2x512x512_S2x512x512_2_1_1_2_0_0.rhsIdx i q 0).val = (i 0).val := by
  unfold DotDims.rhsIdx
  rw [dif_pos (show (0 : Fin S2x512x512.rank) ∈ dot_S2x512x512_S2x512x512_S2x512x512_2_1_1_2_0_0.rhsBatch by decide)]
  rfl
theorem rhs_colrow_1 (i : S2x512x512.Idx) (q : dot_S2x512x512_S2x512x512_S2x512x512_2_1_1_2_0_0.contr.Idx) :
    (dot_S2x512x512_S2x512x512_S2x512x512_2_1_1_2_0_0.rhsIdx i q 1).val = (q ⟨0, by decide⟩).val :=
  dot_S2x512x512_S2x512x512_S2x512x512_2_1_1_2_0_0.rhsIdx_val_of_single rfl i q
theorem rhs_colrow_2 (i : S2x512x512.Idx) (q : dot_S2x512x512_S2x512x512_S2x512x512_2_1_1_2_0_0.contr.Idx) :
    (dot_S2x512x512_S2x512x512_S2x512x512_2_1_1_2_0_0.rhsIdx i q 2).val = (i 2).val := by
  unfold DotDims.rhsIdx
  rw [dif_neg (show ¬(2 : Fin S2x512x512.rank) ∈ dot_S2x512x512_S2x512x512_S2x512x512_2_1_1_2_0_0.rhsBatch by decide), dif_pos (show (2 : Fin S2x512x512.rank) ∈ dot_S2x512x512_S2x512x512_S2x512x512_2_1_1_2_0_0.rhsNonContracting by decide)]
  rfl

/-- Into a zero accumulator, entry `(p, i, k)` of that product is `∑ j, l[p, i, j] · r[p, j, k]`. -/
theorem matmul_colrow_apply {φ₁ φ₂ : FTy} (l : FVec Ideal S2x512x512 φ₁) (r : FVec Ideal S2x512x512 φ₂) (p : Fin 2) (i k : Fin 512) :
    matmul dot_S2x512x512_S2x512x512_S2x512x512_2_1_1_2_0_0 none l r (constant S2x512x512 .f32 0x00000000#32) (ix3 p i k)
      = ∑ j : Fin 512, l (ix3 p i j) * r (ix3 p j k) := by
  simp only [matmul]
  rw [Ideal.matmul_constant_zero_apply, ← Equiv.sum_comp (contrEquiv1 dot_S2x512x512_S2x512x512_S2x512x512_2_1_1_2_0_0 512 rfl rfl).symm]
  refine Finset.sum_congr rfl fun j _ => ?_
  have hk := contrEquiv1_symm_val dot_S2x512x512_S2x512x512_S2x512x512_2_1_1_2_0_0 512 rfl rfl j
  have el : dot_S2x512x512_S2x512x512_S2x512x512_2_1_1_2_0_0.lhsIdx (ix3 p i k) ((contrEquiv1 dot_S2x512x512_S2x512x512_S2x512x512_2_1_1_2_0_0 512 rfl rfl).symm j) = ix3 p i j := funext fun a => Fin.ext (by
    match a with
    | ⟨0, _⟩ => exact lhs_colrow_0 _ _
    | ⟨1, _⟩ => exact lhs_colrow_1 _ _
    | ⟨2, _⟩ => exact (lhs_colrow_2 _ _).trans hk)
  have er : dot_S2x512x512_S2x512x512_S2x512x512_2_1_1_2_0_0.rhsIdx (ix3 p i k) ((contrEquiv1 dot_S2x512x512_S2x512x512_S2x512x512_2_1_1_2_0_0 512 rfl rfl).symm j) = ix3 p j k := funext fun a => Fin.ext (by
    match a with
    | ⟨0, _⟩ => exact rhs_colrow_0 _ _
    | ⟨1, _⟩ => exact (rhs_colrow_1 _ _).trans hk
    | ⟨2, _⟩ => exact rhs_colrow_2 _ _)
  rw [el, er]

/-! ## The product that contracts the ROWS of both operands (the left operand transposed) -/

theorem lhs_rowrow_0 (i : S2x512x512.Idx) (q : dot_S2x512x512_S2x512x512_S2x512x512_1_1_2_2_0_0.contr.Idx) :
    (dot_S2x512x512_S2x512x512_S2x512x512_1_1_2_2_0_0.lhsIdx i q 0).val = (i 0).val := by
  unfold DotDims.lhsIdx
  rw [dif_pos (show (0 : Fin S2x512x512.rank) ∈ dot_S2x512x512_S2x512x512_S2x512x512_1_1_2_2_0_0.lhsBatch by decide)]
  rfl
theorem lhs_rowrow_1 (i : S2x512x512.Idx) (q : dot_S2x512x512_S2x512x512_S2x512x512_1_1_2_2_0_0.contr.Idx) :
    (dot_S2x512x512_S2x512x512_S2x512x512_1_1_2_2_0_0.lhsIdx i q 1).val = (q ⟨0, by decide⟩).val :=
  dot_S2x512x512_S2x512x512_S2x512x512_1_1_2_2_0_0.lhsIdx_val_of_single rfl i q
theorem lhs_rowrow_2 (i : S2x512x512.Idx) (q : dot_S2x512x512_S2x512x512_S2x512x512_1_1_2_2_0_0.contr.Idx) :
    (dot_S2x512x512_S2x512x512_S2x512x512_1_1_2_2_0_0.lhsIdx i q 2).val = (i 1).val := by
  unfold DotDims.lhsIdx
  rw [dif_neg (show ¬(2 : Fin S2x512x512.rank) ∈ dot_S2x512x512_S2x512x512_S2x512x512_1_1_2_2_0_0.lhsBatch by decide), dif_pos (show (2 : Fin S2x512x512.rank) ∈ dot_S2x512x512_S2x512x512_S2x512x512_1_1_2_2_0_0.lhsNonContracting by decide)]
  rfl
theorem rhs_rowrow_0 (i : S2x512x512.Idx) (q : dot_S2x512x512_S2x512x512_S2x512x512_1_1_2_2_0_0.contr.Idx) :
    (dot_S2x512x512_S2x512x512_S2x512x512_1_1_2_2_0_0.rhsIdx i q 0).val = (i 0).val := by
  unfold DotDims.rhsIdx
  rw [dif_pos (show (0 : Fin S2x512x512.rank) ∈ dot_S2x512x512_S2x512x512_S2x512x512_1_1_2_2_0_0.rhsBatch by decide)]
  rfl
theorem rhs_rowrow_1 (i : S2x512x512.Idx) (q : dot_S2x512x512_S2x512x512_S2x512x512_1_1_2_2_0_0.contr.Idx) :
    (dot_S2x512x512_S2x512x512_S2x512x512_1_1_2_2_0_0.rhsIdx i q 1).val = (q ⟨0, by decide⟩).val :=
  dot_S2x512x512_S2x512x512_S2x512x512_1_1_2_2_0_0.rhsIdx_val_of_single rfl i q
theorem rhs_rowrow_2 (i : S2x512x512.Idx) (q : dot_S2x512x512_S2x512x512_S2x512x512_1_1_2_2_0_0.contr.Idx) :
    (dot_S2x512x512_S2x512x512_S2x512x512_1_1_2_2_0_0.rhsIdx i q 2).val = (i 2).val := by
  unfold DotDims.rhsIdx
  rw [dif_neg (show ¬(2 : Fin S2x512x512.rank) ∈ dot_S2x512x512_S2x512x512_S2x512x512_1_1_2_2_0_0.rhsBatch by decide), dif_pos (show (2 : Fin S2x512x512.rank) ∈ dot_S2x512x512_S2x512x512_S2x512x512_1_1_2_2_0_0.rhsNonContracting by decide)]
  rfl

/-- Into a zero accumulator, entry `(p, i, k)` of that product is `∑ j, l[p, j, i] · r[p, j, k]`. -/
theorem matmul_rowrow_apply {φ₁ φ₂ : FTy} (l : FVec Ideal S2x512x512 φ₁) (r : FVec Ideal S2x512x512 φ₂) (p : Fin 2) (i k : Fin 512) :
    matmul dot_S2x512x512_S2x512x512_S2x512x512_1_1_2_2_0_0 none l r (constant S2x512x512 .f32 0x00000000#32) (ix3 p i k)
      = ∑ j : Fin 512, l (ix3 p j i) * r (ix3 p j k) := by
  simp only [matmul]
  rw [Ideal.matmul_constant_zero_apply, ← Equiv.sum_comp (contrEquiv1 dot_S2x512x512_S2x512x512_S2x512x512_1_1_2_2_0_0 512 rfl rfl).symm]
  refine Finset.sum_congr rfl fun j _ => ?_
  have hk := contrEquiv1_symm_val dot_S2x512x512_S2x512x512_S2x512x512_1_1_2_2_0_0 512 rfl rfl j
  have el : dot_S2x512x512_S2x512x512_S2x512x512_1_1_2_2_0_0.lhsIdx (ix3 p i k) ((contrEquiv1 dot_S2x512x512_S2x512x512_S2x512x512_1_1_2_2_0_0 512 rfl rfl).symm j) = ix3 p j i := funext fun a => Fin.ext (by
    match a with
    | ⟨0, _⟩ => exact lhs_rowrow_0 _ _
    | ⟨1, _⟩ => exact (lhs_rowrow_1 _ _).trans hk
    | ⟨2, _⟩ => exact lhs_rowrow_2 _ _)
  have er : dot_S2x512x512_S2x512x512_S2x512x512_1_1_2_2_0_0.rhsIdx (ix3 p i k) ((contrEquiv1 dot_S2x512x512_S2x512x512_S2x512x512_1_1_2_2_0_0 512 rfl rfl).symm j) = ix3 p j k := funext fun a => Fin.ext (by
    match a with
    | ⟨0, _⟩ => exact rhs_rowrow_0 _ _
    | ⟨1, _⟩ => exact (rhs_rowrow_1 _ _).trans hk
    | ⟨2, _⟩ => exact rhs_rowrow_2 _ _)
  rw [el, er]

/-! ## The mask, laid over the block's batch axis -/

/-- The mask viewed with a leading unit axis and broadcast over the two batch elements reads, at `(p, j, k)`, the
    mask's entry `(j, k)`. -/
theorem maskOverBatch_apply {α : Type} (x2 : S512x512.Idx → α) (p : Fin 2) (j k : Fin 512) :
    broadcastTo S2x512x512 (shapeCast S1x512x512 (shapeCast S512x512 x2 shapeCasts_S512x512_S512x512) shapeCasts_S512x512_S1x512x512)
        broadcasts_S1x512x512_S2x512x512 (ix3 p j k) = x2 (ix2 j k) := by
  refine (broadcastTo_apply _ broadcasts_S1x512x512_S2x512x512 (ix3 p j k) (ix3 (0 : Fin 1) j k) (fun a => ?_)).trans ?_
  · match a with
    | ⟨0, _⟩ => show (0 : Nat) = if (1 : Nat) = 1 then 0 else p.val; rw [if_pos rfl]
    | ⟨1, _⟩ => show j.val = if (512 : Nat) = 1 then 0 else j.val; rw [if_neg (by decide)]
    | ⟨2, _⟩ => show k.val = if (512 : Nat) = 1 then 0 else k.val; rw [if_neg (by decide)]
  · refine (shapeCast_addUnit_apply ![512, 512] _ shapeCasts_S512x512_S1x512x512 (ix3 (0 : Fin 1) j k)).trans ?_
    rw [shapeCast_self]
    exact congrArg x2 (funext fun a => match a with | ⟨0, _⟩ => rfl | ⟨1, _⟩ => rfl)

/-! ## The stored block -/

/-- What the body stores, at the ideal values, is `CholProduct.result` of the loaded blocks and the loaded mask. -/
theorem pay_apply (x0 x1 : Vec Ideal S2x512x512 .f32) (x2 : Vec Ideal S512x512 .f32) (p : Fin 2) (i k : Fin 512) :
    k0_pay1 (F := Ideal) x0 x1 x2 (ix3 p i k) = CholProduct.result x0 x1 x2 (ix3 p i k) := by
  rw [CholProduct.result_apply]
  unfold k0_pay1
  rw [subf_apply, broadcast_apply, matmul_colrow_apply]
  show Ideal.ofBits .f32 0x00000000#32 - _ = _
  rw [Ideal.ofBits_zero_f32, zero_sub]
  refine congrArg Neg.neg (Finset.sum_congr rfl fun j _ => ?_)
  rw [truncf_apply, truncf_apply, mulf_apply, matmul_rowrow_apply, maskOverBatch_apply]
  unfold CholProduct.phiMasked CholProduct.phi
  refine congrArg (x1 (ix3 p i j) * ·) (congrArg (· * x2 (ix2 j k)) (Finset.sum_congr rfl fun l _ => ?_))
  rw [truncf_apply, truncf_apply, matmul_colrow_apply]
  rfl

/-! ## One stored entry against the whole array -/

/-- One stored entry against the whole-array function, over arrays and blocks of the literal shapes: if the loaded
    blocks are batch elements `2·tv`, `2·tv + 1` of `cov` and `chol`, the loaded mask is `mask`, and `z` is the array
    index of block entry `y` (batch coordinate shifted by `2·tv`, the matrix coordinates kept), then the stored value at
    `y` is `CholProduct.result cov chol mask` at `z`. -/
theorem stored_entry (cov chol : Vec Ideal S128x512x512 .f32) (mask : Vec Ideal S512x512 .f32)
    (x0 x1 : Vec Ideal S2x512x512 .f32) (x2 : Vec Ideal S512x512 .f32) (tv : Nat) (htv : tv < 64)
    (h0 : ∀ (p : Fin 2) (i j : Fin 512), x0 (ix3 p i j) = cov (ix3 (⟨2 * tv + p.val, by omega⟩ : Fin 128) i j))
    (h1 : ∀ (p : Fin 2) (i j : Fin 512), x1 (ix3 p i j) = chol (ix3 (⟨2 * tv + p.val, by omega⟩ : Fin 128) i j))
    (h2 : x2 = mask)
    (y : S2x512x512.Idx) (z : S128x512x512.Idx)
    (hz0 : (z 0).val = 2 * tv + (y 0).val) (hz1 : (z 1).val = (y 1).val) (hz2 : (z 2).val = (y 2).val) :
    k0_pay1 (F := Ideal) x0 x1 x2 y = CholProduct.result cov chol mask z := by
  subst h2
  obtain ⟨p, i, k, rfl⟩ : ∃ (p : Fin 2) (i k : Fin 512), y = ix3 p i k := ⟨y 0, y 1, y 2, eq_ix3 y⟩
  have hz : z = ix3 (⟨2 * tv + p.val, by omega⟩ : Fin 128) i k := by
    funext a; apply Fin.ext
    match a with
    | ⟨0, _⟩ => exact hz0
    | ⟨1, _⟩ => exact hz1
    | ⟨2, _⟩ => exact hz2
  rw [hz, pay_apply]
  exact CholProduct.result_restrict cov chol x0 x1 x2 (fun q => ⟨2 * tv + q.val, by omega⟩) h0 h1 p i k

end Cert.KernelIdeal.Block

end
-- ==== Proof.KernelArray.lean ====
/-
  From blocks to the whole array. The grid has 64 points. Point `t` reads batch elements `2t` and `2t + 1` of
  `cov` and of `chol` (a block of two whole matrices of each) and the whole mask, and writes back batch elements
  `2t` and `2t + 1` of the output; along the two matrix axes every block is the whole axis. Because the batch
  elements do not mix (`CholProduct.result_restrict`), what point `t` writes is block `t` of ONE whole-array
  function: `CholProduct.result` of the two argument arrays and of the mask array as the region finds it. The 64
  output blocks tile the output array (batch element `b` lies in the block of point `b / 2`), so after the run the
  output array is that function.
-/
import proofs.«169895_j25237227831465_1_alg».proof.Proof.Gen.KernelIdeal.Value
import proofs.«169895_j25237227831465_1_alg».proof.Proof.KernelBlock

set_option maxRecDepth 16384

noncomputable section

namespace Cert.KernelIdeal.Whole

open Cert.KernelIdeal Cert.KernelIdeal.Gen Cert.KernelIdeal.Value Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

theorem zeros3 : (![0, 0, 0] : Fin 3 → Nat) = fun _ => 0 := funext fun a => by fin_cases a <;> rfl
theorem zeros2 : (![0, 0] : Fin 2 → Nat) = fun _ => 0 := funext fun a => by fin_cases a <;> rfl

/-- The printed index maps, decided over the 64 grid points: the two batched inputs and the output sit at block `t` of
    the batch axis and at block 0 of both matrix axes; the mask sits at block `(0, 0)`. -/
theorem block_indices : ∀ t : Fin cfg0.N,
    win0_0.index t (0 : Fin 3) = t.val ∧ win0_0.index t (1 : Fin 3) = 0 ∧ win0_0.index t (2 : Fin 3) = 0
    ∧ win0_1.index t (0 : Fin 3) = t.val ∧ win0_1.index t (1 : Fin 3) = 0 ∧ win0_1.index t (2 : Fin 3) = 0
    ∧ win0_2.index t (0 : Fin 2) = 0 ∧ win0_2.index t (1 : Fin 2) = 0
    ∧ win0_3.index t (0 : Fin 3) = t.val ∧ win0_3.index t (1 : Fin 3) = 0 ∧ win0_3.index t (2 : Fin 3) = 0 :=
  (by decide +kernel : ∀ t : Fin grid0.N, _)

/-- WHAT POINT `t` WRITES BACK is block `t` of the whole-array function of the arrays as the region finds them. -/
theorem flushed_eq (c : Dev nD) (t : Fin cfg0.N) :
    (dats m 0 c).flushed 3 t
      = ((cfg0.win 3).blk t).view.read (Elt Ideal) (CholProduct.result (V m c main_arg1) (V m c main_arg2) (V m c main_v10)) := by
  rw [flushed3]
  unfold out0_3
  rw [View.canon_unit_zero zeros3]
  simp only [View.ld_unit_zero (S := S2x512x512) zeros3, View.ld_unit_zero (S := S512x512) zeros2]
  obtain ⟨e00, e01, e02, e10, e11, e12, e20, e21, e30, e31, e32⟩ := block_indices t
  have ht : t.val < 64 := lt_of_lt_of_eq t.isLt N_0
  funext y
  -- the array-side entry of the block: `read G y` is `G` at the embedded index
  have hR : ∀ G : S128x512x512.Idx → EReal, ((cfg0.win 3).blk t).view.read (Elt Ideal) G y = G (((cfg0.win 3).blk t).view.emb y) :=
    fun _ => rfl
  rw [hR]
  -- the block-side entry: with the stored block kept opaque, `cut` applied at `y` is the block at `y`'s place in it
  generalize hP : k0_pay1 (F := Ideal) (iblk m c 0 t) (iblk m c 1 t) (iblk m c 2 t) = P
  have hL : (cfg0.win 3).cut (grid0.coords t) P y = P ((cfg0.win 3).xinj (grid0.coords t) y) := rfl
  rw [hL, ← hP]
  refine Block.stored_entry (V m c main_arg1) (V m c main_arg2) (V m c main_v10) (iblk m c 0 t) (iblk m c 1 t) (iblk m c 2 t)
    t.val ht ?_ ?_ ?_ ((cfg0.win 3).xinj (grid0.coords t) y) (((cfg0.win 3).blk t).view.emb y) ?_ ?_ ?_
  · intro p i j
    show V m c main_arg1 (((cfg0.win 0).blk t).view.emb (ix3 p i j)) = _
    refine congrArg (V m c main_arg1) (funext fun a => Fin.ext ?_)
    match a with
    | ⟨0, _⟩ => show win0_0.index t (0 : Fin 3) * 2 + 1 * p.val = 2 * t.val + p.val; omega
    | ⟨1, _⟩ => show win0_0.index t (1 : Fin 3) * 512 + 1 * i.val = i.val; omega
    | ⟨2, _⟩ => show win0_0.index t (2 : Fin 3) * 512 + 1 * j.val = j.val; omega
  · intro p i j
    show V m c main_arg2 (((cfg0.win 1).blk t).view.emb (ix3 p i j)) = _
    refine congrArg (V m c main_arg2) (funext fun a => Fin.ext ?_)
    match a with
    | ⟨0, _⟩ => show win0_1.index t (0 : Fin 3) * 2 + 1 * p.val = 2 * t.val + p.val; omega
    | ⟨1, _⟩ => show win0_1.index t (1 : Fin 3) * 512 + 1 * i.val = i.val; omega
    | ⟨2, _⟩ => show win0_1.index t (2 : Fin 3) * 512 + 1 * j.val = j.val; omega
  · have hz' : (fun a => win0_2.index t a * main_v10.ty.shape.size a) = fun _ => 0 :=
      funext fun a => by
        match a with
        | ⟨0, _⟩ => show win0_2.index t (0 : Fin 2) * 512 = 0; omega
        | ⟨1, _⟩ => show win0_2.index t (1 : Fin 2) * 512 = 0; omega
    exact Memref.read_access_unit_zero (Elt Ideal) main_v10 hz' (fun a => by rw [congrFun hz' a]; simp) (V m c main_v10)
  · show win0_3.index t (0 : Fin 3) * 2 + 1 * (y 0).val = 2 * t.val + (y 0).val; omega
  · show win0_3.index t (1 : Fin 3) * 512 + 1 * (y 1).val = (y 1).val; omega
  · show win0_3.index t (2 : Fin 3) * 512 + 1 * (y 2).val = (y 2).val; omega

/-- An index of the output array is in point `t`'s block iff each coordinate is in the block's range on its axis. -/
theorem mem_blk (t : Fin cfg0.N) (i : S128x512x512.Idx) :
    i ∈ ((cfg0.win 3).blk t).view.set ↔ ∀ a : Fin 3, win0_3.index t a * S2x512x512.size a ≤ (i a).val ∧ (i a).val < win0_3.index t a * S2x512x512.size a + S2x512x512.size a := by
  show i ∈ ((View.whole main_v11).slice (win0_3.rect t)).set ↔ _
  rw [View.set_slice_whole, Rect.mem_set_unit]
  exact Iff.rfl

/-- The blocks tile the output array: batch element `b` lies in the block of point `b / 2`. -/
theorem covered (i : S128x512x512.Idx) :
    ∃ t : Fin cfg0.N, (cfg0.win 3).flush t = true ∧ i ∈ ((cfg0.win 3).blk t).view.set := by
  have hi0 : (i 0).val < 128 := (i 0).isLt
  have hi1 : (i 1).val < 512 := (i 1).isLt
  have hi2 : (i 2).val < 512 := (i 2).isLt
  have hN : (i 0).val / 2 < cfg0.N := lt_of_lt_of_eq (by omega : (i 0).val / 2 < 64) N_0.symm
  obtain ⟨-, -, -, -, -, -, -, -, e30, e31, e32⟩ := block_indices ⟨(i 0).val / 2, hN⟩
  have e30' : win0_3.index ⟨(i 0).val / 2, hN⟩ (0 : Fin 3) = (i 0).val / 2 := e30
  refine ⟨⟨(i 0).val / 2, hN⟩, flush0_3 _, ?_⟩
  rw [mem_blk]
  intro a
  match a with
  | ⟨0, _⟩ => show win0_3.index ⟨(i 0).val / 2, hN⟩ (0 : Fin 3) * 2 ≤ (i 0).val ∧ (i 0).val < win0_3.index ⟨(i 0).val / 2, hN⟩ (0 : Fin 3) * 2 + 2; omega
  | ⟨1, _⟩ => show win0_3.index ⟨(i 0).val / 2, hN⟩ (1 : Fin 3) * 512 ≤ (i 1).val ∧ (i 1).val < win0_3.index ⟨(i 0).val / 2, hN⟩ (1 : Fin 3) * 512 + 512; omega
  | ⟨2, _⟩ => show win0_3.index ⟨(i 0).val / 2, hN⟩ (2 : Fin 3) * 512 ≤ (i 2).val ∧ (i 2).val < win0_3.index ⟨(i 0).val / 2, hN⟩ (2 : Fin 3) * 512 + 512; omega

/-- THE OUTPUT ARRAY after the run: the whole-array function of the argument arrays as launched and of the mask array as
    the region finds it. -/
theorem final (c : Dev nD) :
    (dats m 0 c).arrAt 3 cfg0.N
      = CholProduct.result (m ((c : Thread nD τ).loc main_arg1)) (m ((c : Thread nD τ).loc main_arg2)) (V m c main_v10) := by
  rw [(dats m 0 c).arrAt_eq_of_cover 3 _ (fun t _ => flushed_eq m c t) covered, V_main_arg1, V_main_arg2]

/-- The kernel's run with its result array named. -/
theorem run : θ_run defs (onTc (τ := τ) (main (F := Ideal))) ⟨m, fun _ => 0, ρ⟩ fun r => ∀ c : Dev nD,
      r.2.mem ((c : Thread nD τ).loc main_v11)
        = CholProduct.result (m ((c : Thread nD τ).loc main_arg1)) (m ((c : Thread nD τ).loc main_arg2)) (V m c main_v10)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2) :=
  (θ_run defs _ _).mono (fun r h c => ⟨(h c).1.trans (final m c), (h c).2⟩) (run_blocks m ρ)

end Cert.KernelIdeal.Whole

end
-- ==== Proof.LibTypedRefCasts.lean ====
/-
  A module-local function's values are named by typed references: a buffer together with the equation that its type
  is the value's type `T`. Writing a value to such a buffer transports it along that equation, and reading it back
  transports it along the equation's other direction. There and back is the identity, for ANY buffer: eliminate the
  equation and both transports are along `rfl`. Nothing about the program's signature is unfolded, which is what
  makes this the cheap way to clear the transports a run leaves around an inlined function's values.
-/
import Idealize.ShloMosaic.Lib.StableHlo

namespace Cert.Lib.TypedRef

open Idealize.ShloMosaic Idealize.ShloMosaic.StableHlo

variable {sig : RefSig} {Val : EltTy → Type} {T : BufTy}

/-- A value carried to the type of a typed reference's buffer and back again is the value. -/
theorem ofBuf_toBuf_of (r : Ref sig .tc) (h1 : r.ty = T) (h2 : r.space ≠ .host) (h3 : r.isScoped = false) (v : T.Contents Val) :
    (TRef.of r h1 h2 h3).ofBuf ((TRef.of r h1 h2 h3).toBuf v) = v := by
  subst h1; rfl

/-- The same the other way round: a buffer's contents read at the value's type and carried back are the contents. -/
theorem toBuf_ofBuf_of (r : Ref sig .tc) (h1 : r.ty = T) (h2 : r.space ≠ .host) (h3 : r.isScoped = false) (v : r.ty.Contents Val) :
    (TRef.of r h1 h2 h3).toBuf ((TRef.of r h1 h2 h3).ofBuf v) = v := by
  subst h1; rfl

end Cert.Lib.TypedRef
-- ==== Proof.KernelMask.lean ====
/-
  The mask array the kernel's region finds is the reference's mask array. Both programs build it on the host from
  constants alone, by the same operations in the same order: ones where `row − 1 ≥ column` and zeros elsewhere (a
  lower-triangle helper called on an all-ones matrix), plus one half times the indicator of `row = column`. So
  the two arrays are one term; no entry of it is ever evaluated. The helper is called through typed references,
  whose transports to a buffer's type and back are cleared first (a pair is the identity for any buffer; the two
  single ones left, where the helper meets the plain operations, are at buffers whose type is the value's).
-/
import proofs.«169895_j25237227831465_1_alg».proof.Proof.Gen.KernelIdeal.Frame
import proofs.«169895_j25237227831465_1_alg».proof.Proof.ReferenceRead
import proofs.«169895_j25237227831465_1_alg».proof.Proof.LibTypedRefCasts
import Idealize.ShloMosaic.Lib.StableHlo.Run

noncomputable section

namespace Cert.KernelIdeal.Mask

open Cert.KernelIdeal Cert.KernelIdeal.Gen Idealize.ShloMosaic Idealize.ShloMosaic.TcCoe Idealize.ShloMosaic.StableHlo

variable {F : FTy → Type} [FloatOps F]

theorem toBuf_main_v1 (h1 h2 h3) (v : (⟨S512x512, .f32⟩ : BufTy).Contents (Elt F)) :
    (TRef.of (T := ⟨S512x512, .f32⟩) main_v1 h1 h2 h3).toBuf v = v := rfl
theorem ofBuf_main_v0 (h1 h2 h3) (v : (⟨S512x512, .f32⟩ : BufTy).Contents (Elt F)) :
    (TRef.of (T := ⟨S512x512, .f32⟩) main_v0 h1 h2 h3).ofBuf v = v := rfl

/-- The array window 2 stages, as the region finds it, is the reference's mask stage. -/
theorem mask_eq (m : (ℓ : Loc nD τ sig) → Buf (Elt F) ℓ) (c : Dev nD) :
    (V m c main_v10 : S512x512.Idx → Elt F .f32) = Cert.ReferenceIdeal.ReadP.val_main_v13 (F := F) := by
  dsimp only [V]
  simp only [hostOps0, hostOps0_1, hostOps0_2, List.flatten_cons, List.flatten_nil, List.append_nil, List.cons_append,
    List.nil_append]
  after_results_simp
  simp only [Cert.Lib.TypedRef.ofBuf_toBuf_of, toBuf_main_v1, ofBuf_main_v0]
  rfl

end Cert.KernelIdeal.Mask

end
-- ==== Proof.ReferenceValue.lean ====
/-
  The reference, stage by stage, is the specification. Its host program transposes `chol` on its two matrix axes,
  forms `A · L` and then `Lᵀ · (A · L)` as two batched products (each contracting the left operand's columns with
  the right operand's rows, so the transposed left operand makes the second one the sum over the ROWS of `L`),
  multiplies entrywise by the mask broadcast over the batch axis, forms `L · Ψ` and negates. Read at an entry,
  each stage is the corresponding function of `CholProduct`; the mask array is kept as the host program builds it
  and never opened.
-/
import proofs.«169895_j25237227831465_1_alg».proof.Proof.ReferenceRead
import proofs.«169895_j25237227831465_1_alg».proof.Proof.CholProduct

noncomputable section

namespace Cert.ReferenceIdeal.RefValue

open Cert.ReferenceIdeal Cert.ReferenceIdeal.ReadP Idealize.ShloMosaic Idealize.ShloMosaic.ValueIdx

/-! ## The operand indices of the three products, the transpose and the broadcast, at an entry given by coordinates -/

theorem lidx_v1 (b : Fin 128) (i k j : Fin 512) : lidx_main_v1 (ix3 b i k) j = ix3 b i j :=
  funext fun a => Fin.ext (by match a with | ⟨0, _⟩ => rfl | ⟨1, _⟩ => rfl | ⟨2, _⟩ => rfl)
theorem ridx_v1 (b : Fin 128) (i k j : Fin 512) : ridx_main_v1 (ix3 b i k) j = ix3 b j k :=
  funext fun a => Fin.ext (by match a with | ⟨0, _⟩ => rfl | ⟨1, _⟩ => rfl | ⟨2, _⟩ => rfl)
theorem lidx_v2 (b : Fin 128) (i k j : Fin 512) : lidx_main_v2 (ix3 b i k) j = ix3 b i j :=
  funext fun a => Fin.ext (by match a with | ⟨0, _⟩ => rfl | ⟨1, _⟩ => rfl | ⟨2, _⟩ => rfl)
theorem ridx_v2 (b : Fin 128) (i k j : Fin 512) : ridx_main_v2 (ix3 b i k) j = ix3 b j k :=
  funext fun a => Fin.ext (by match a with | ⟨0, _⟩ => rfl | ⟨1, _⟩ => rfl | ⟨2, _⟩ => rfl)
theorem lidx_v17 (b : Fin 128) (i k j : Fin 512) : lidx_main_v17 (ix3 b i k) j = ix3 b i j :=
  funext fun a => Fin.ext (by match a with | ⟨0, _⟩ => rfl | ⟨1, _⟩ => rfl | ⟨2, _⟩ => rfl)
theorem ridx_v17 (b : Fin 128) (i k j : Fin 512) : ridx_main_v17 (ix3 b i k) j = ix3 b j k :=
  funext fun a => Fin.ext (by match a with | ⟨0, _⟩ => rfl | ⟨1, _⟩ => rfl | ⟨2, _⟩ => rfl)
/-- The transpose swaps the two matrix coordinates. -/
theorem idx_v0 (b : Fin 128) (i j : Fin 512) : idx_main_v0 (ix3 b i j) = ix3 b j i :=
  funext fun a => Fin.ext (by match a with | ⟨0, _⟩ => rfl | ⟨1, _⟩ => rfl | ⟨2, _⟩ => rfl)
/-- The mask broadcast over the batch axis is read at the two matrix coordinates. -/
theorem idx_v14_v15 (b : Fin 128) (j k : Fin 512) : idx_main_v14 (idx_main_v15 (ix3 b j k)) = ix2 j k :=
  funext fun a => Fin.ext (by match a with | ⟨0, _⟩ => rfl | ⟨1, _⟩ => rfl)

/-! ## The stages -/

variable (cov chol : Vec Ideal S128x512x512 .f32)

/-- `A · L`. -/
theorem covChol_eq (b : Fin 128) (l k : Fin 512) :
    val_main_v1 (F := Ideal) cov chol (ix3 b l k) = CholProduct.covChol cov chol b l k := by
  rw [val_main_v1_apply]
  unfold CholProduct.covChol
  refine Finset.sum_congr rfl fun n _ => ?_
  rw [lidx_v1, ridx_v1]

/-- `Lᵀ · (A · L)`: the transposed left operand read at `(b, j, l)` is `L` at `(b, l, j)`. -/
theorem phi_eq (b : Fin 128) (j k : Fin 512) :
    val_main_v2 (F := Ideal) cov chol (ix3 b j k) = CholProduct.phi cov chol b j k := by
  rw [val_main_v2_apply]
  unfold CholProduct.phi
  refine Finset.sum_congr rfl fun l _ => ?_
  rw [lidx_v2, ridx_v2, val_main_v0_apply, idx_v0, covChol_eq]

/-- The mask over the batch axis. -/
theorem maskOverBatch_eq (b : Fin 128) (j k : Fin 512) :
    val_main_v15 (F := Ideal) (ix3 b j k) = val_main_v13 (F := Ideal) (ix2 j k) := by
  rw [val_main_v15_apply, val_main_v14_apply, idx_v14_v15]

/-- `Φ ∘ M`. -/
theorem phiMasked_eq (b : Fin 128) (j k : Fin 512) :
    val_main_v16 (F := Ideal) cov chol (ix3 b j k) = CholProduct.phiMasked cov chol (val_main_v13 (F := Ideal)) b j k := by
  rw [val_main_v16_apply, phi_eq, maskOverBatch_eq]
  rfl

/-- The reference's result array is the specification of its two matrix arguments and its mask array. -/
theorem result_eq :
    val_main_v18 (F := Ideal) cov chol = CholProduct.result cov chol (val_main_v13 (F := Ideal)) := by
  funext idx
  obtain ⟨b, i, k, rfl⟩ : ∃ (b : Fin 128) (i k : Fin 512), idx = ix3 b i k := ⟨idx 0, idx 1, idx 2, eq_ix3 idx⟩
  rw [val_main_v18_apply, val_main_v17_apply, CholProduct.result_apply, Ideal.hostNegf_def, Ideal.negf_def]
  refine congrArg Neg.neg (Finset.sum_congr rfl fun j _ => ?_)
  rw [lidx_v17, ridx_v17, phiMasked_eq]

end Cert.ReferenceIdeal.RefValue

end
-- ==== Proof.lean ====
/-
  The certificate of a batched triple matrix product with a triangular mask. For each of 128 batch elements, with
  A the covariance matrix, L the Cholesky factor (both 512 × 512) and M the mask (strict lower triangle, one half on
  the diagonal), both programs compute
      R = −( L · ( (Lᵀ · (A · L)) ∘ M ) ),
  and pass the mean vector through untouched.
  The kernel does it two batch elements per grid point over 64 points, with three matrix products into a zero
  accumulator, the second contracting the ROWS of both operands (the product with the transpose without transposing),
  and stores `0 − L · Ψ`; the reference transposes `L`, uses the host's batched products and negates. On the
  extended reals the narrowing conversions between the products are the identity, each product at an entry is the
  plain sum over the contracted axis, and `0 − x = −x`; the sums are the same sums term for term, so no law that
  needs finite inputs is used and the precondition is never opened.
  The kernel's result array as one function of its argument arrays: Proof/KernelBlock.lean (one block),
  Proof/KernelArray.lean (the 64 blocks tile the array); the reference's: Proof/ReferenceValue.lean over its run read
  stage by stage; that the two mask arrays are one: Proof/KernelMask.lean. The function itself: Proof/CholProduct.lean.
  The idealization rewrote nothing, so `preserves` is `True`.
-/
import proofs.«169895_j25237227831465_1_alg».proof.Defs
import proofs.«169895_j25237227831465_1_alg».proof.Proof.Gen.Kernel
import proofs.«169895_j25237227831465_1_alg».proof.Proof.Gen.Kernel.Skeleton
import proofs.«169895_j25237227831465_1_alg».proof.Proof.Gen.Kernel.Launch
import proofs.«169895_j25237227831465_1_alg».proof.Proof.Gen.Kernel.Points
import proofs.«169895_j25237227831465_1_alg».proof.Proof.Gen.Kernel.Frame
import proofs.«169895_j25237227831465_1_alg».proof.Proof.Gen.KernelIdeal
import proofs.«169895_j25237227831465_1_alg».proof.Proof.Gen.KernelIdeal.Skeleton
import proofs.«169895_j25237227831465_1_alg».proof.Proof.Gen.KernelIdeal.Launch
import proofs.«169895_j25237227831465_1_alg».proof.Proof.Gen.KernelIdeal.Points
import proofs.«169895_j25237227831465_1_alg».proof.Proof.Gen.KernelIdeal.Frame
import proofs.«169895_j25237227831465_1_alg».proof.Proof.Gen.ReferenceIdeal
import proofs.«169895_j25237227831465_1_alg».proof.Proof.Gen.Pre_finite_inputs
import proofs.«169895_j25237227831465_1_alg».proof.Proof.Gen.KernelIdeal.Value
import proofs.«169895_j25237227831465_1_alg».proof.Proof.KernelArray
import proofs.«169895_j25237227831465_1_alg».proof.Proof.KernelMask
import proofs.«169895_j25237227831465_1_alg».proof.Proof.ReferenceValue
import Idealize.ShloMosaic.Adequacy
import Idealize.ShloMosaic.Init

noncomputable section

namespace Cert.Proof

open Idealize.ShloMosaic Idealize.SL.Sem

/-- The word-level kernel runs and leaves its arguments as they were. -/
theorem frame_kernel : Cert.frame_Kernel := fun m ρ _ => Cert.Kernel.Gen.frame m ρ

/-- So does the kernel read at the ideal values. -/
theorem frame_kernelIdeal : Cert.frame_KernelIdeal := fun m ρ _ => Cert.KernelIdeal.Gen.frame m ρ

/-- The reference has no kernel: its frame is its run with the results dropped. -/
theorem frame_referenceIdeal : Cert.frame_ReferenceIdeal := fun m ρ _ =>
  (θ_run Cert.ReferenceIdeal.defs _ _).mono (fun _ h c => (h c).2.2) (Cert.ReferenceIdeal.ValueP.run (F := Ideal) m ρ)

/-- From memories that agree on the arguments both programs end with the mean vector as given and with the result array
    `CholProduct.result` of the covariance and Cholesky arrays and of the one mask array. -/
theorem algebraic : Cert.algebraic_KernelIdeal_ReferenceIdeal := by
  intro m ρ m' ρ' _ hagree
  refine ⟨fun c => m ((c.tc : Thread Cert.KernelIdeal.nD Cert.KernelIdeal.τ).loc Cert.KernelIdeal.main_arg0),
    fun c => Cert.CholProduct.result (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (Cert.ReferenceIdeal.ReadP.val_main_v13 (F := Ideal)), ?_, ?_⟩
  · exact (θ_run Cert.KernelIdeal.defs _ _).mono
      (fun r h c => ⟨(h c).2.1,
        (h c).1.trans (congrArg (Cert.CholProduct.result _ _) (Cert.KernelIdeal.Mask.mask_eq (F := Ideal) m c)),
        (h c).2.1, (h c).2.2.1, (h c).2.2.2⟩)
      (Cert.KernelIdeal.Whole.run m ρ)
  · exact (θ_run Cert.ReferenceIdeal.defs _ _).mono
      (fun r h c => ⟨(h c).1.trans (hagree c).1,
        (h c).2.1.trans ((Cert.ReferenceIdeal.ReadP.val_main_v18_eq (F := Ideal) _ _).trans
          ((Cert.ReferenceIdeal.RefValue.result_eq _ _).trans (by rw [(hagree c).2.1, (hagree c).2.2]))),
        (h c).2.2.1, (h c).2.2.2.1, (h c).2.2.2.2⟩)
      (Cert.ReferenceIdeal.ValueP.run (F := Ideal) m' ρ')

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, trivial, algebraic⟩

end Cert.Proof

end
